-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S1x64 : S_.BroadcastsInDim S1x64 (![] : Fin 0 → Fin S1x64.rank)
  reducesTo_S1x64_S_d0_1 : S1x64.ReducesTo [0, 1] S_
  h_S_ : 0 < S_.numel
  bcast_S_S64x800000 : S_.BroadcastsInDim S64x800000 (![] : Fin 0 → Fin S64x800000.rank)
  reducesTo_S64x800000_S_d0_1 : S64x800000.ReducesTo [0, 1] S_
  bcast_S_S800000 : S_.BroadcastsInDim S800000 (![] : Fin 0 → Fin S800000.rank)
  reducesTo_S800000_S_d0 : S800000.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S32x1 .f32) (main_arg9 : FVec F S1 .f32) (main_v33 : IVec S_ 1) : IVec S_ 1 :=
  let main_v34 : FVec F S32x1 .f32 := Host.absf main_arg8
  let main_cst_12 : FVec F S_ .f32 := constant S_ .f32 0x7F800000#32
  let main_v35 : FVec F S32x1 .f32 := broadcastInDim S32x1 ![] bcast_S_S32x1 main_cst_12
  let main_v36 : IVec S32x1 1 := cmpf .olt main_v34 main_v35
  let main_c_13 : IVec S_ 1 := constantI S_ 1 1#1
  let main_v37 : IVec S_ 1 := (fun x v => Host.reduce IntOp.andi x v reducesTo_S32x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64 .f32) (main_arg6 : FVec F S64x32 .f32) (main_arg7 : FVec F S32 .f32) (main_arg8 : FVec F S32x1 .f32) (main_arg9 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_v33

def fn {F : FTy → Type} [FloatOps F] (main_arg0 : FVec F S1x64 .f32) (main_arg1 : IVec S2x1600000 32) (main_arg2 : FVec F S64x800000 .f32) (main_arg3 : FVec F S800000 .f32) (main_arg4 : FVec F S16x64 .f32) (main_arg5 : FVec F S64 .f32) (main_arg6 : FVec F S64x32 .f32) (main_arg7 : FVec F S32 .f32) (main_arg8 : FVec F S32x1 .f32) (main_arg9 : FVec F S1 .f32) : IVec S_ 1 :=
  let main_v0 : FVec F S1x64 .f32 := Host.absf main_arg0
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_c : IVec S_ 1 := constantI S_ 1 1#1
  let main_v3 : IVec S_ 1 := (fun x v => Host.reduce IntOp.andi x v reducesTo_S1x64_S_d0_1 h_S_) main_v2 main_c
  let main_v4 : FVec F S64x800000 .f32 := Host.absf main_arg2
  let main_cst_0 : FVec F S_ .f32 := constant S_ .f32 0x7F800000#32
  let main_v5 : FVec F S64x800000 .f32 := broadcastInDim S64x800000 ![] bcast_S_S64x800000 main_cst_0
  let main_v6 : IVec S64x800000 1 := cmpf .olt main_v4 main_v5
  let main_c_1 : IVec S_ 1 := constantI S_ 1 1#1
  let main_v7 : IVec S_ 1 := (fun x v => Host.reduce IntOp.andi x v reducesTo_S64x800000_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_v13 main_v16
-- ==== Kernel.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x800000 : Shape := ⟨2, ![1, 800000]⟩
abbrev S64x16000 : Shape := ⟨2, ![64, 16000]⟩
abbrev S1x16000 : Shape := ⟨2, ![1, 16000]⟩
abbrev S50000x16 : Shape := ⟨2, ![50000, 16]⟩
abbrev S50000x64 : Shape := ⟨2, ![50000, 64]⟩
abbrev S5000x16 : Shape := ⟨2, ![5000, 16]⟩
abbrev S5000x64 : Shape := ⟨2, ![5000, 64]⟩
abbrev S1650000x64 : Shape := ⟨2, ![1650000, 64]⟩
abbrev S50000x32 : Shape := ⟨2, ![50000, 32]⟩
abbrev S5000x32 : Shape := ⟨2, ![5000, 32]⟩
abbrev S1650000x32 : Shape := ⟨2, ![1650000, 32]⟩
abbrev S1x32 : Shape := ⟨2, ![1, 32]⟩
abbrev S50000x1 : Shape := ⟨2, ![50000, 1]⟩
abbrev S5000x1 : Shape := ⟨2, ![5000, 1]⟩
abbrev S1x1 : Shape := ⟨2, ![1, 1]⟩
abbrev S1x50000 : Shape := ⟨2, ![1, 50000]⟩

abbrev nBuf : Space → Nat
  | .hbm => 127
  | .vmem => 22
  | .smem => 0
  | _ => 0

abbrev bufTy : (tb : Table) → Fin (tcTables nBuf tb) → BufTy
  | .hbm, ⟨0, _⟩ => ⟨S1x64, .f32⟩
  | .hbm, ⟨1, _⟩ => ⟨S2x1600000, .i32⟩
  | .hbm, ⟨2, _⟩ => ⟨S64x800000, .f32⟩
  | .hbm, ⟨3, _⟩ => ⟨S800000, .f32⟩
  | .hbm, ⟨4, _⟩ => ⟨S16x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1x800000, .f32⟩
  | .hbm, ⟨51, _⟩ => ⟨S1x800000, .f32⟩
  | .hbm, ⟨52, _⟩ => ⟨S50000x16, .f32⟩
  | .hbm, ⟨53, _⟩ => ⟨S50000x64, .f32⟩
  | .hbm, ⟨54, _⟩ => ⟨S1650000x1, .f32⟩
  | .hbm, ⟨55, _⟩ => ⟨S_, .i32⟩
  | .hbm, ⟨56, _⟩ => ⟨S1650000, .i32⟩
  | .hbm, ⟨57, _⟩ => ⟨S1650000, .i1⟩
  | .hbm, ⟨58, _⟩ => ⟨S_, .i32⟩
  | .hbm, ⟨59, _⟩ => ⟨S1650000, .i32⟩
  | .hbm, ⟨60, _⟩ => ⟨S1650000, .i32⟩
  | .hbm, ⟨61, _⟩ => ⟨S1650000, .i32⟩
  | .hbm, ⟨62, _⟩ => ⟨S1650000x1, .i32⟩
  | .hbm, ⟨63, _⟩ => ⟨S1650000x64, .f32⟩
  | .hbm, ⟨64, _⟩ => ⟨S1650000x64, .f32⟩
  | .hbm, ⟨65, _⟩ => ⟨S1650000x64, .f32⟩
  | .hbm, ⟨66, _⟩ => ⟨S_, .f32⟩
  | .hbm, ⟨67, _⟩ => ⟨S50000x64, .f32⟩
  | .hbm, ⟨68, _⟩ => ⟨S1650000x1, .i32⟩
  | .hbm, ⟨69, _⟩ => ⟨S50000x64, .f32⟩
  | .hbm, ⟨70, _⟩ => ⟨S1x64, .f32⟩
  | .hbm, ⟨71, _⟩ => ⟨S50000x64, .f32⟩
  | .hbm, ⟨72, _⟩ => ⟨S50000x64, .f32⟩
  | .hbm, ⟨73, _⟩ => ⟨S_, .f32⟩
  | .hbm, ⟨74, _⟩ => ⟨S50000x64, .f32⟩
  | .hbm, ⟨75, _⟩ => ⟨S50000x64, .f32⟩
  | .hbm, ⟨76, _⟩ => ⟨S50000x32, .f32⟩
  | .hbm, ⟨77, _⟩ => ⟨S1650000x1, .f32⟩
  | .hbm, ⟨78, _⟩ => ⟨S_, .i32⟩
  | .hbm, ⟨79, _⟩ => ⟨S1650000, .i32⟩
  | .hbm, ⟨80, _⟩ => ⟨S1650000, .i1⟩
  | .hbm, ⟨81, _⟩ => ⟨S_, .i32⟩
  | .hbm, ⟨82, _⟩ => ⟨S1650000, .i32⟩
  | .hbm, ⟨83, _⟩ => ⟨S1650000, .i32⟩
  | .hbm, ⟨84, _⟩ => ⟨S1650000, .i32⟩
  | .hbm, ⟨85, _⟩ => ⟨S1650000x1, .i32⟩
  | .hbm, ⟨86, _⟩ => ⟨S1650000x32, .f32⟩
  | .hbm, ⟨87, _⟩ => ⟨S1650000x32, .f32⟩
  | .hbm, ⟨88, _⟩ => ⟨S1650000x32, .f32⟩
  | .hbm, ⟨89, _⟩ => ⟨S_, .f32⟩
  | .hbm, ⟨90, _⟩ => ⟨S50000x32, .f32⟩
  | .hbm, ⟨91, _⟩ => ⟨S1650000x1, .i32⟩
  | .hbm, ⟨92, _⟩ => ⟨S50000x32, .f32⟩
  | .hbm, ⟨93, _⟩ => ⟨S1x32, .f32⟩
  | .hbm, ⟨94, _⟩ => ⟨S50000x32, .f32⟩
  | .hbm, ⟨95, _⟩ => ⟨S50000x32, .f32⟩
  | .hbm, ⟨96, _⟩ => ⟨S_, .f32⟩
  | .hbm, ⟨97, _⟩ => ⟨S50000x32, .f32⟩
  | .hbm, ⟨98, _⟩ => ⟨S50000x32, .f32⟩
  | .hbm, ⟨99, _⟩ => ⟨S50000x1, .f32⟩
  | .hbm, ⟨100, _⟩ => ⟨S1650000x1, .f32⟩
  | .hbm, ⟨101, _⟩ => ⟨S_, .i32⟩
  | .hbm, ⟨102, _⟩ => ⟨S1650000, .i32⟩
  | .hbm, ⟨103, _⟩ => ⟨S1650000, .i1⟩
  | .hbm, ⟨104, _⟩ => ⟨S_, .i32⟩
  | .hbm, ⟨105, _⟩ => ⟨S1650000, .i32⟩
  | .hbm, ⟨106, _⟩ => ⟨S1650000, .i32⟩
  | .hbm, ⟨107, _⟩ => ⟨S1650000, .i32⟩
  | .hbm, ⟨108, _⟩ => ⟨S1650000x1, .i32⟩
  | .hbm, ⟨109, _⟩ => ⟨S1650000x1, .f32⟩
  | .hbm, ⟨110, _⟩ => ⟨S1650000x1, .f32⟩
  | .hbm, ⟨111, _⟩ => ⟨S_, .f32⟩
  | .hbm, ⟨112, _⟩ => ⟨S50000x1, .f32⟩
  | .hbm, ⟨113, _⟩ => ⟨S1650000x1, .i32⟩
  | .hbm, ⟨114, _⟩ => ⟨S50000x1, .f32⟩
  | .hbm, ⟨115, _⟩ => ⟨S1x1, .f32⟩
  | .hbm, ⟨116, _⟩ => ⟨S50000x1, .f32⟩
  | .hbm, ⟨117, _⟩ => ⟨S50000x1, .f32⟩
  | .hbm, ⟨118, _⟩ => ⟨S1x50000, .f32⟩
  | .hbm, ⟨119, _⟩ => ⟨S1x50000, .f32⟩
  | .hbm, ⟨120, _⟩ => ⟨S1x50000, .f32⟩
  | .hbm, ⟨121, _⟩ => ⟨S_, .f32⟩
  | .hbm, ⟨122, _⟩ => ⟨S1x50000, .f32⟩
  | .hbm, ⟨123, _⟩ => ⟨S1x50000, .f32⟩
  | .hbm, ⟨124, _⟩ => ⟨S_, .f32⟩
  | .hbm, ⟨125, _⟩ => ⟨S1x50000, .f32⟩
  | .hbm, ⟨126, _⟩ => ⟨S1x50000, .f32⟩
  | .local _ .vmem, ⟨0, _⟩ => ⟨S1x64, .f32⟩
  | .local _ .vmem, ⟨1, _⟩ => ⟨S64x16000, .f32⟩
  | .local _ .vmem, ⟨2, _⟩ => ⟨S64x16000, .f32⟩
  | .local _ .vmem, ⟨3, _⟩ => ⟨S1x16000, .f32⟩
  | .local _ .vmem, ⟨4, _⟩ => ⟨S1x16000, .f32⟩
  | .local _ .vmem, ⟨5, _⟩ => ⟨S1x16000, .f32⟩
  | .local _ .vmem, ⟨6, _⟩ => ⟨S1x16000, .f32⟩
  | .local _ .vmem, ⟨7, _⟩ => ⟨S5000x16, .f32⟩
  | .local _ .vmem, ⟨8, _⟩ => ⟨S5000x16, .f32⟩
  | .local _ .vmem, ⟨9, _⟩ => ⟨S16x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S32x1, .f32⟩
  | .local _ .vmem, ⟨20, _⟩ => ⟨S5000x1, .f32⟩
  | .local _ .vmem, ⟨21, _⟩ => ⟨S5000x1, .f32⟩
  | _, _ => ⟨S1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_c_9 : Ref sig .tc := ⟨.hbm, 78, rfl⟩
abbrev main_v53 : Ref sig .tc := ⟨.hbm, 79, rfl⟩
abbrev main_v54 : Ref sig .tc := ⟨.hbm, 80, rfl⟩
abbrev main_c_10 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call2_cst : Ref sig .tc := ⟨.hbm, 96, rfl⟩
abbrev main_call2_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_12 : Ref sig .tc := ⟨.hbm, 101, rfl⟩
abbrev main_v71 : Ref sig .tc := ⟨.hbm, 102, rfl⟩
abbrev main_v72 : Ref sig .tc := ⟨.hbm, 103, rfl⟩
abbrev main_c_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_15 : Ref sig .tc := ⟨.hbm, 121, rfl⟩
abbrev main_v88 : Ref sig .tc := ⟨.hbm, 122, rfl⟩
abbrev main_v89 : Ref sig .tc := ⟨.hbm, 123, rfl⟩
abbrev main_cst_16 : Ref sig .tc := ⟨.hbm, 124, rfl⟩
abbrev main_v90 : Ref sig .tc := ⟨.hbm, 125, rfl⟩
abbrev main_v91 : Ref sig .tc := ⟨.hbm, 126, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S800000_S1x800000 : S800000.ShapeCasts S1x800000
  inb_S1x64_S1x64_0_0 : ∀ a, (![0, 0] : Fin 2 → Nat) a + S1x64.size a ≤ S1x64.size a
  h_S1x64 : 0 < S1x64.numel
  bitsLt_bf16_f32 : FTy.bits .bf16 < FTy.bits .f32
  inb_S64x16000_S64x16000_0_0 : ∀ a, (![0, 0] : Fin 2 → Nat) a + S64x16000.size a ≤ S64x16000.size a
  h_S64x16000 : 0 < S64x16000.numel
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  shapeCasts_S1x800000_S50000x16 : S1x800000.ShapeCasts S50000x16
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  inb_S16x64_S16x64_0_0 : ∀ a, (![0, 0] : Fin 2 → Nat) a + S16x64.size a ≤ S16x64.size a
  h_S16x64 : 0 < S16x64.numel
  inb_S5000x64_S5000x64_0_0 : ∀ a, (![0, 0] : Fin 2 → Nat) a + S5000x64.size a ≤ S5000x64.size a
  h_S5000x64 : 0 < S5000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  shapeCasts_S5000x32_S5000x32 : S5000x32.ShapeCasts S5000x32
  inb_S32x1_S32x1_0_0 : ∀ a, (![0, 0] : Fin 2 → Nat) a + S32x1.size a ≤ S32x1.size a
  h_S32x1 : 0 < S32x1.numel
  inb_S5000x1_S5000x1_0_0 : ∀ a, (![0, 0] : Fin 2 → Nat) a + S5000x1.size a ≤ S5000x1.size a
  h_S5000x1 : 0 < S5000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S1x50000 : S50000x1.ShapeCasts S1x50000
  bcast_S_S1x50000 : S_.BroadcastsInDim S1x50000 (![] : Fin 0 → Fin S1x50000.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1x64_S64x16000_S1x16000_1_0_0_1_n_n_wf : DotDims.WF S1x64 S64x16000 S1x16000 [1] [0] [0] [1] [] []
  dot_S5000x16_S16x64_S5000x64_1_0_0_1_n_n_wf : DotDims.WF S5000x16 S16x64 S5000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S5000x32_S32x1_S5000x1_1_0_0_1_n_n_wf : DotDims.WF S5000x32 S32x1 S5000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x64.size a ≤ S1x64.size a
  hwx0_0 : ∀ i : grid0.Coords, EltTy.bits .f32 = 32 ∨ (Rect.block (s := S1x64) S1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x16000.size a ≤ S64x800000.size a
  hwx0_1 : ∀ i : grid0.Coords, EltTy.bits .f32 = 32 ∨ (Rect.block (s := S64x800000) S64x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16000.size a ≤ S1x800000.size a
  hwx0_2 : ∀ i : grid0.Coords, EltTy.bits .f32 = 32 ∨ (Rect.block (s := S1x800000) S1x16000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16000.size a ≤ S1x800000.size a
  hwx0_3 : ∀ i : grid0.Coords, EltTy.bits .f32 = 32 ∨ (Rect.block (s := S1x800000) S1x16000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S50000x16.size a
  hwx1_0 : ∀ i : grid1.Coords, EltTy.bits .f32 = 32 ∨ (Rect.block (s := S50000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x64.size a ≤ S16x64.size a
  hwx1_1 : ∀ i : grid1.Coords, EltTy.bits .f32 = 32 ∨ (Rect.block (s := S16x64) S16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S50000x32.size a
  hwx2_2 : ∀ i : grid2.Coords, EltTy.bits .f32 = 32 ∨ (Rect.block (s := S50000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x1.size a ≤ S32x1.size a
  hwx3_1 : ∀ i : grid3.Coords, EltTy.bits .f32 = 32 ∨ (Rect.block (s := S32x1) S32x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1x64_S64x16000_S1x16000_1_0_0_1_n_n : DotDims S1x64 S64x16000 S1x16000 where
  lhsContracting := [1]
  rhsContracting := [0]
  lhsNonContracting := [0]
  rhsNonContracting := [1]
  lhsBatch := []
  rhsBatch := []
  wf := dot_S1x64_S64x16000_S1x16000_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

abbrev win0_0 : Pipeline.Window sig grid0 :=
  Pipeline.Window.ofSpec (Memref.whole main_arg0) S1x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x16000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x16000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v68) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S5000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S1x64 : Shape := ⟨2, ![1, 64]⟩
abbrev S2x1600000 : Shape := ⟨2, ![2, 1600000]⟩
abbrev S64x800000 : Shape := ⟨2, ![64, 800000]⟩
abbrev S800000 : Shape := ⟨1, ![800000]⟩
abbrev S16x64 : Shape := ⟨2, ![16, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1x800000 : Shape := ⟨2, ![1, 800000]⟩
abbrev S50000x16 : Shape := ⟨2, ![50000, 16]⟩
abbrev S50000x64 : Shape := ⟨2, ![50000, 64]⟩
abbrev S1650000x64 : Shape := ⟨2, ![1650000, 64]⟩
abbrev S50000x32 : Shape := ⟨2, ![50000, 32]⟩
abbrev S1650000x32 : Shape := ⟨2, ![1650000, 32]⟩
abbrev S1x32 : Shape := ⟨2, ![1, 32]⟩
abbrev S50000x1 : Shape := ⟨2, ![50000, 1]⟩
abbrev S1x1 : Shape := ⟨2, ![1, 1]⟩
abbrev S1x50000 : Shape := ⟨2, ![1, 50000]⟩

abbrev nBuf : Space → Nat
  | .hbm => 128
  | .vmem => 0
  | .smem => 0
  | _ => 0

abbrev bufTy : (tb : Table) → Fin (tcTables nBuf tb) → BufTy
  | .hbm, ⟨0, _⟩ => ⟨S1x64, .f32⟩
  | .hbm, ⟨1, _⟩ => ⟨S2x1600000, .i32⟩
  | .hbm, ⟨2, _⟩ => ⟨S64x800000, .f32⟩
  | .hbm, ⟨3, _⟩ => ⟨S800000, .f32⟩
  | .hbm, ⟨4, _⟩ => ⟨S16x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S50000, .i32⟩
  | .hbm, ⟨15, _⟩ => ⟨S1650000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1x800000, .f32⟩
  | .hbm, ⟨51, _⟩ => ⟨S1x800000, .f32⟩
  | .hbm, ⟨52, _⟩ => ⟨S1x800000, .f32⟩
  | .hbm, ⟨53, _⟩ => ⟨S50000x16, .f32⟩
  | .hbm, ⟨54, _⟩ => ⟨S50000x64, .f32⟩
  | .hbm, ⟨55, _⟩ => ⟨S1650000x1, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x64, .f32⟩
  | .hbm, ⟨65, _⟩ => ⟨S1650000x64, .f32⟩
  | .hbm, ⟨66, _⟩ => ⟨S1650000x64, .f32⟩
  | .hbm, ⟨67, _⟩ => ⟨S_, .f32⟩
  | .hbm, ⟨68, _⟩ => ⟨S50000x64, .f32⟩
  | .hbm, ⟨69, _⟩ => ⟨S1650000x1, .i32⟩
  | .hbm, ⟨70, _⟩ => ⟨S50000x64, .f32⟩
  | .hbm, ⟨71, _⟩ => ⟨S1x64, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x32, .f32⟩
  | .hbm, ⟨78, _⟩ => ⟨S1650000x1, .f32⟩
  | .hbm, ⟨79, _⟩ => ⟨S_, .i32⟩
  | .hbm, ⟨80, _⟩ => ⟨S1650000, .i32⟩
  | .hbm, ⟨81, _⟩ => ⟨S1650000, .i1⟩
  | .hbm, ⟨82, _⟩ => ⟨S_, .i32⟩
  | .hbm, ⟨83, _⟩ => ⟨S1650000, .i32⟩
  | .hbm, ⟨84, _⟩ => ⟨S1650000, .i32⟩
  | .hbm, ⟨85, _⟩ => ⟨S1650000, .i32⟩
  | .hbm, ⟨86, _⟩ => ⟨S1650000x1, .i32⟩
  | .hbm, ⟨87, _⟩ => ⟨S1650000x32, .f32⟩
  | .hbm, ⟨88, _⟩ => ⟨S1650000x32, .f32⟩
  | .hbm, ⟨89, _⟩ => ⟨S1650000x32, .f32⟩
  | .hbm, ⟨90, _⟩ => ⟨S_, .f32⟩
  | .hbm, ⟨91, _⟩ => ⟨S50000x32, .f32⟩
  | .hbm, ⟨92, _⟩ => ⟨S1650000x1, .i32⟩
  | .hbm, ⟨93, _⟩ => ⟨S50000x32, .f32⟩
  | .hbm, ⟨94, _⟩ => ⟨S1x32, .f32⟩
  | .hbm, ⟨95, _⟩ => ⟨S50000x32, .f32⟩
  | .hbm, ⟨96, _⟩ => ⟨S50000x32, .f32⟩
  | .hbm, ⟨97, _⟩ => ⟨S_, .f32⟩
  | .hbm, ⟨98, _⟩ => ⟨S50000x32, .f32⟩
  | .hbm, ⟨99, _⟩ => ⟨S50000x32, .f32⟩
  | .hbm, ⟨100, _⟩ => ⟨S50000x1, .f32⟩
  | .hbm, ⟨101, _⟩ => ⟨S1650000x1, .f32⟩
  | .hbm, ⟨102, _⟩ => ⟨S_, .i32⟩
  | .hbm, ⟨103, _⟩ => ⟨S1650000, .i32⟩
  | .hbm, ⟨104, _⟩ => ⟨S1650000, .i1⟩
  | .hbm, ⟨105, _⟩ => ⟨S_, .i32⟩
  | .hbm, ⟨106, _⟩ => ⟨S1650000, .i32⟩
  | .hbm, ⟨107, _⟩ => ⟨S1650000, .i32⟩
  | .hbm, ⟨108, _⟩ => ⟨S1650000, .i32⟩
  | .hbm, ⟨109, _⟩ => ⟨S1650000x1, .i32⟩
  | .hbm, ⟨110, _⟩ => ⟨S1650000x1, .f32⟩
  | .hbm, ⟨111, _⟩ => ⟨S1650000x1, .f32⟩
  | .hbm, ⟨112, _⟩ => ⟨S_, .f32⟩
  | .hbm, ⟨113, _⟩ => ⟨S50000x1, .f32⟩
  | .hbm, ⟨114, _⟩ => ⟨S1650000x1, .i32⟩
  | .hbm, ⟨115, _⟩ => ⟨S50000x1, .f32⟩
  | .hbm, ⟨116, _⟩ => ⟨S1x1, .f32⟩
  | .hbm, ⟨117, _⟩ => ⟨S50000x1, .f32⟩
  | .hbm, ⟨118, _⟩ => ⟨S50000x1, .f32⟩
  | .hbm, ⟨119, _⟩ => ⟨S1x50000, .f32⟩
  | .hbm, ⟨120, _⟩ => ⟨S1x50000, .f32⟩
  | .hbm, ⟨121, _⟩ => ⟨S1x50000, .f32⟩
  | .hbm, ⟨122, _⟩ => ⟨S_, .f32⟩
  | .hbm, ⟨123, _⟩ => ⟨S1x50000, .f32⟩
  | .hbm, ⟨124, _⟩ => ⟨S1x50000, .f32⟩
  | .hbm, ⟨125, _⟩ => ⟨S_, .f32⟩
  | .hbm, ⟨126, _⟩ => ⟨S1x50000, .f32⟩
  | .hbm, ⟨127, _⟩ => ⟨S1x50000, .f32⟩
  | _, _ => ⟨S1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_c_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_12 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_14 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_15 : Ref sig .tc := ⟨.hbm, 122, rfl⟩
abbrev main_v89 : Ref sig .tc := ⟨.hbm, 123, rfl⟩
abbrev main_v90 : Ref sig .tc := ⟨.hbm, 124, rfl⟩
abbrev main_cst_16 : Ref sig .tc := ⟨.hbm, 125, rfl⟩
abbrev main_v91 : Ref sig .tc := ⟨.hbm, 126, rfl⟩
abbrev main_v92 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S800000_S1x800000_1 : S800000.BroadcastsInDim S1x800000 (![1] : Fin 1 → Fin S1x800000.rank)
  shapeCasts_S1x800000_S50000x16 : S1x800000.ShapeCasts S50000x16
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S1x50000 : S50000x1.ShapeCasts S1x50000
  bcast_S_S1x50000 : S_.BroadcastsInDim S1x50000 (![] : Fin 0 → Fin S1x50000.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S1x64_S64x800000_S1x800000_1_0_0_1_n_n_wf : DotDims.WF S1x64 S64x800000 S1x800000 [1] [0] [0] [1] [] []
  dot_S50000x16_S16x64_S50000x64_1_0_0_1_n_n_wf : DotDims.WF S50000x16 S16x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x1_S50000x1_1_0_0_1_n_n_wf : DotDims.WF S50000x32 S32x1 S50000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S1x64_S64x800000_S1x800000_1_0_0_1_n_n : DotDims S1x64 S64x800000 S1x800000 where
  lhsContracting := [1]
  rhsContracting := [0]
  lhsNonContracting := [0]
  rhsNonContracting := [1]
  lhsBatch := []
  rhsBatch := []
  wf := dot_S1x64_S64x800000_S1x800000_1_0_0_1_n_n_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

class Facts : Prop extends Facts₀ where

variable [Facts]
-- ==== Proof.Carry.lean ====
/-
  Which buffers the host stretches and the four regions leave alone. The edge lists  src_f, dst_f  (`main_v5`, `main_v6`), the
  edge coefficients (`main_v29`) and the argument arrays are computed or given once and then only read: every later host
  stretch writes other buffers, and a region writes only its own result array. So at every later boundary of @main each of
  them still holds what it held when it was made.
-/
import proofs.«143719_j2104533975392_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe

variable {F : FTy → Type} [FloatOps F]
variable (m : (ℓ : Loc nD τ sig) → Buf (Elt F) ℓ) (ρ : Dev nD → PrngReg)

/-- A buffer that none of a stretch's operations writes holds after the stretch what it held before. -/
local macro "kept_by " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The stretch before the first region: the arguments it does not consume -/

theorem W3_arg (b : Ref sig .tc) (c : Dev nD)
    (h0 : W1 m ρ c (Proc.devRef .tc b) = W0 m ρ c (Proc.devRef .tc b))
    (h1 : W2 m ρ c (Proc.devRef .tc b) = W1 m ρ c (Proc.devRef .tc b))
    (h2 : W3 m ρ c (Proc.devRef .tc b) = W2 m ρ c (Proc.devRef .tc b)) :
    W3 m ρ c (Proc.devRef .tc b) = m ((c : Thread nD τ).loc b) :=
  h2.trans (h1.trans (h0.trans rfl))

theorem W3_arg0 (c : Dev nD) : W3 m ρ c (Proc.devRef .tc main_arg0) = m ((c : Thread nD τ).loc main_arg0) :=
  W3_arg m ρ main_arg0 c (by kept_by hostOps0) (by kept_by hostOps0_1) (by kept_by hostOps0_2)
theorem W3_arg2 (c : Dev nD) : W3 m ρ c (Proc.devRef .tc main_arg2) = m ((c : Thread nD τ).loc main_arg2) :=
  W3_arg m ρ main_arg2 c (by kept_by hostOps0) (by kept_by hostOps0_1) (by kept_by hostOps0_2)
theorem W3_arg4 (c : Dev nD) : W3 m ρ c (Proc.devRef .tc main_arg4) = m ((c : Thread nD τ).loc main_arg4) :=
  W3_arg m ρ main_arg4 c (by kept_by hostOps0) (by kept_by hostOps0_1) (by kept_by hostOps0_2)
theorem W3_arg5 (c : Dev nD) : W3 m ρ c (Proc.devRef .tc main_arg5) = m ((c : Thread nD τ).loc main_arg5) :=
  W3_arg m ρ main_arg5 c (by kept_by hostOps0) (by kept_by hostOps0_1) (by kept_by hostOps0_2)
theorem W3_arg6 (c : Dev nD) : W3 m ρ c (Proc.devRef .tc main_arg6) = m ((c : Thread nD τ).loc main_arg6) :=
  W3_arg m ρ main_arg6 c (by kept_by hostOps0) (by kept_by hostOps0_1) (by kept_by hostOps0_2)
theorem W3_arg7 (c : Dev nD) : W3 m ρ c (Proc.devRef .tc main_arg7) = m ((c : Thread nD τ).loc main_arg7) :=
  W3_arg m ρ main_arg7 c (by kept_by hostOps0) (by kept_by hostOps0_1) (by kept_by hostOps0_2)
theorem W3_arg8 (c : Dev nD) : W3 m ρ c (Proc.devRef .tc main_arg8) = m ((c : Thread nD τ).loc main_arg8) :=
  W3_arg m ρ main_arg8 c (by kept_by hostOps0) (by kept_by hostOps0_1) (by kept_by hostOps0_2)
theorem W3_arg9 (c : Dev nD) : W3 m ρ c (Proc.devRef .tc main_arg9) = m ((c : Thread nD τ).loc main_arg9) :=
  W3_arg m ρ main_arg9 c (by kept_by hostOps0) (by kept_by hostOps0_1) (by kept_by hostOps0_2)

/-! ## From the first region's entry to the second region's exit (`W3` to `W6`) -/

/-- A buffer that is neither region's result array nor the reshape's result is at `W6` what it was at `W3`. -/
theorem W6_of (b : Ref sig .tc) (c : Dev nD)
    (h3 : ∀ w, Pipeline.arrRef spec0 w ≠ b) (h4 : W5 m ρ c (Proc.devRef .tc b) = W4 m ρ c (Proc.devRef .tc b))
    (h5 : ∀ w, Pipeline.arrRef spec1 w ≠ b) :
    W6 m ρ c (Proc.devRef .tc b) = W3 m ρ c (Proc.devRef .tc b) :=
  (W6_of_ne m ρ c b h5).trans (h4.trans (W4_of_ne m ρ c b h3))

/-- The same up to the second region's entry (`W5`). -/
theorem W5_of (b : Ref sig .tc) (c : Dev nD)
    (h3 : ∀ w, Pipeline.arrRef spec0 w ≠ b) (h4 : W5 m ρ c (Proc.devRef .tc b) = W4 m ρ c (Proc.devRef .tc b)) :
    W5 m ρ c (Proc.devRef .tc b) = W3 m ρ c (Proc.devRef .tc b) :=
  h4.trans (W4_of_ne m ρ c b h3)

theorem W5_arg4 (c : Dev nD) : W5 m ρ c (Proc.devRef .tc main_arg4) = m ((c : Thread nD τ).loc main_arg4) :=
  (W5_of m ρ main_arg4 c (by decide) (by kept_by hostOps1)).trans (W3_arg4 m ρ c)

theorem W6_v5 (c : Dev nD) : W6 m ρ c (Proc.devRef .tc main_v5) = W3 m ρ c (Proc.devRef .tc main_v5) :=
  W6_of m ρ main_v5 c (by decide) (by kept_by hostOps1) (by decide)
theorem W6_v6 (c : Dev nD) : W6 m ρ c (Proc.devRef .tc main_v6) = W3 m ρ c (Proc.devRef .tc main_v6) :=
  W6_of m ρ main_v6 c (by decide) (by kept_by hostOps1) (by decide)
theorem W6_v29 (c : Dev nD) : W6 m ρ c (Proc.devRef .tc main_v29) = W3 m ρ c (Proc.devRef .tc main_v29) :=
  W6_of m ρ main_v29 c (by decide) (by kept_by hostOps1) (by decide)
theorem W6_arg5 (c : Dev nD) : W6 m ρ c (Proc.devRef .tc main_arg5) = m ((c : Thread nD τ).loc main_arg5) :=
  (W6_of m ρ main_arg5 c (by decide) (by kept_by hostOps1) (by decide)).trans (W3_arg5 m ρ c)
theorem W6_arg6 (c : Dev nD) : W6 m ρ c (Proc.devRef .tc main_arg6) = m ((c : Thread nD τ).loc main_arg6) :=
  (W6_of m ρ main_arg6 c (by decide) (by kept_by hostOps1) (by decide)).trans (W3_arg6 m ρ c)
theorem W6_arg7 (c : Dev nD) : W6 m ρ c (Proc.devRef .tc main_arg7) = m ((c : Thread nD τ).loc main_arg7) :=
  (W6_of m ρ main_arg7 c (by decide) (by kept_by hostOps1) (by decide)).trans (W3_arg7 m ρ c)
theorem W6_arg8 (c : Dev nD) : W6 m ρ c (Proc.devRef .tc main_arg8) = m ((c : Thread nD τ).loc main_arg8) :=
  (W6_of m ρ main_arg8 c (by decide) (by kept_by hostOps1) (by decide)).trans (W3_arg8 m ρ c)
theorem W6_arg9 (c : Dev nD) : W6 m ρ c (Proc.devRef .tc main_arg9) = m ((c : Thread nD τ).loc main_arg9) :=
  (W6_of m ρ main_arg9 c (by decide) (by kept_by hostOps1) (by decide)).trans (W3_arg9 m ρ c)

/-! ## From the second region's exit to the third region's exit (`W6` to `W9`) -/

theorem W8_of (b : Ref sig .tc) (c : Dev nD)
    (h6 : W7 m ρ c (Proc.devRef .tc b) = W6 m ρ c (Proc.devRef .tc b))
    (h7 : W8 m ρ c (Proc.devRef .tc b) = W7 m ρ c (Proc.devRef .tc b)) :
    W8 m ρ c (Proc.devRef .tc b) = W6 m ρ c (Proc.devRef .tc b) :=
  h7.trans h6

theorem W9_of (b : Ref sig .tc) (c : Dev nD)
    (h6 : W7 m ρ c (Proc.devRef .tc b) = W6 m ρ c (Proc.devRef .tc b))
    (h7 : W8 m ρ c (Proc.devRef .tc b) = W7 m ρ c (Proc.devRef .tc b))
    (h8 : ∀ w, Pipeline.arrRef spec2 w ≠ b) :
    W9 m ρ c (Proc.devRef .tc b) = W6 m ρ c (Proc.devRef .tc b) :=
  (W9_of_ne m ρ c b h8).trans (h7.trans h6)

theorem W8_arg6 (c : Dev nD) : W8 m ρ c (Proc.devRef .tc main_arg6) = m ((c : Thread nD τ).loc main_arg6) :=
  (W8_of m ρ main_arg6 c (by kept_by hostOps2) (by kept_by hostOps2_1)).trans (W6_arg6 m ρ c)

theorem W9_v5 (c : Dev nD) : W9 m ρ c (Proc.devRef .tc main_v5) = W3 m ρ c (Proc.devRef .tc main_v5) :=
  (W9_of m ρ main_v5 c (by kept_by hostOps2) (by kept_by hostOps2_1) (by decide)).trans (W6_v5 m ρ c)
theorem W9_v6 (c : Dev nD) : W9 m ρ c (Proc.devRef .tc main_v6) = W3 m ρ c (Proc.devRef .tc main_v6) :=
  (W9_of m ρ main_v6 c (by kept_by hostOps2) (by kept_by hostOps2_1) (by decide)).trans (W6_v6 m ρ c)
theorem W9_v29 (c : Dev nD) : W9 m ρ c (Proc.devRef .tc main_v29) = W3 m ρ c (Proc.devRef .tc main_v29) :=
  (W9_of m ρ main_v29 c (by kept_by hostOps2) (by kept_by hostOps2_1) (by decide)).trans (W6_v29 m ρ c)
theorem W9_arg7 (c : Dev nD) : W9 m ρ c (Proc.devRef .tc main_arg7) = m ((c : Thread nD τ).loc main_arg7) :=
  (W9_of m ρ main_arg7 c (by kept_by hostOps2) (by kept_by hostOps2_1) (by decide)).trans (W6_arg7 m ρ c)
theorem W9_arg8 (c : Dev nD) : W9 m ρ c (Proc.devRef .tc main_arg8) = m ((c : Thread nD τ).loc main_arg8) :=
  (W9_of m ρ main_arg8 c (by kept_by hostOps2) (by kept_by hostOps2_1) (by decide)).trans (W6_arg8 m ρ c)
theorem W9_arg9 (c : Dev nD) : W9 m ρ c (Proc.devRef .tc main_arg9) = m ((c : Thread nD τ).loc main_arg9) :=
  (W9_of m ρ main_arg9 c (by kept_by hostOps2) (by kept_by hostOps2_1) (by decide)).trans (W6_arg9 m ρ c)

/-! ## From the third region's exit to the fourth region's exit (`W9` to `W12`) -/

theorem W11_of (b : Ref sig .tc) (c : Dev nD)
    (h9 : W10 m ρ c (Proc.devRef .tc b) = W9 m ρ c (Proc.devRef .tc b))
    (h10 : W11 m ρ c (Proc.devRef .tc b) = W10 m ρ c (Proc.devRef .tc b)) :
    W11 m ρ c (Proc.devRef .tc b) = W9 m ρ c (Proc.devRef .tc b) :=
  h10.trans h9

theorem W12_of (b : Ref sig .tc) (c : Dev nD)
    (h9 : W10 m ρ c (Proc.devRef .tc b) = W9 m ρ c (Proc.devRef .tc b))
    (h10 : W11 m ρ c (Proc.devRef .tc b) = W10 m ρ c (Proc.devRef .tc b))
    (h11 : ∀ w, Pipeline.arrRef spec3 w ≠ b) :
    W12 m ρ c (Proc.devRef .tc b) = W9 m ρ c (Proc.devRef .tc b) :=
  (W12_of_ne m ρ c b h11).trans (h10.trans h9)

theorem W11_arg8 (c : Dev nD) : W11 m ρ c (Proc.devRef .tc main_arg8) = m ((c : Thread nD τ).loc main_arg8) :=
  (W11_of m ρ main_arg8 c (by kept_by hostOps3) (by kept_by hostOps3_1)).trans (W9_arg8 m ρ c)

theorem W12_v5 (c : Dev nD) : W12 m ρ c (Proc.devRef .tc main_v5) = W3 m ρ c (Proc.devRef .tc main_v5) :=
  (W12_of m ρ main_v5 c (by kept_by hostOps3) (by kept_by hostOps3_1) (by decide)).trans (W9_v5 m ρ c)
theorem W12_v6 (c : Dev nD) : W12 m ρ c (Proc.devRef .tc main_v6) = W3 m ρ c (Proc.devRef .tc main_v6) :=
  (W12_of m ρ main_v6 c (by kept_by hostOps3) (by kept_by hostOps3_1) (by decide)).trans (W9_v6 m ρ c)
theorem W12_v29 (c : Dev nD) : W12 m ρ c (Proc.devRef .tc main_v29) = W3 m ρ c (Proc.devRef .tc main_v29) :=
  (W12_of m ρ main_v29 c (by kept_by hostOps3) (by kept_by hostOps3_1) (by decide)).trans (W9_v29 m ρ c)
theorem W12_arg9 (c : Dev nD) : W12 m ρ c (Proc.devRef .tc main_arg9) = m ((c : Thread nD τ).loc main_arg9) :=
  (W12_of m ρ main_arg9 c (by kept_by hostOps3) (by kept_by hostOps3_1) (by decide)).trans (W9_arg9 m ρ c)

end Cert.KernelIdeal.Carry

end
-- ==== Proof.KHost.lean ====
/-
  The host stretches of the kernel's @main, read as values. Between the regions the kernel's program applies, operation for
  operation, the host operations the reference applies (edge lists, degrees, the symmetric normalisation, gather, scatter-add,
  bias, relu, the final sigmoid); only the four matrix products are regions here and `dot_general`s there. So a stretch
  entered with the reference's stage values in its input buffers leaves the reference's next stage value in its output
  buffer: both sides are the same composition of the same operations, at any float instance.
-/
import proofs.«143719_j2104533975392_1_alg».proof.Proof.Gen.KernelIdeal.Launch
import proofs.«143719_j2104533975392_1_alg».proof.Proof.RefRead
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.ShloMosaic.StableHlo
open Cert.ReferenceIdeal.ReadP (val_main_v5 val_main_v6 val_main_v29 val_main_v32 val_main_v33 val_main_v34 val_main_v51 val_main_v52
  val_main_v69 val_main_v70 val_main_v92)

variable {F : FTy → Type} [FloatOps F]
variable (V : Valuation τ sig (Elt F))

/-! ## Before the first region: the edge lists, the coefficients, the bias as one row -/

set_option maxHeartbeats 4000000 in
/-- The source list with the self-loops appended. -/
theorem pre_v5 : after hostOps0_2 (after hostOps0_1 (after hostOps0 V)) (Proc.devRef .tc main_v5)
    = val_main_v5 (F := F) (V (Proc.devRef .tc main_arg1)) := by
  after_results_simp <;> rfl

set_option maxHeartbeats 4000000 in
/-- The destination list with the self-loops appended. -/
theorem pre_v6 : after hostOps0_2 (after hostOps0_1 (after hostOps0 V)) (Proc.devRef .tc main_v6)
    = val_main_v6 (F := F) (V (Proc.devRef .tc main_arg1)) := by
  after_results_simp <;> rfl

set_option maxHeartbeats 4000000 in
/-- The edge coefficients  d(src)^(-1/2) · d(dst)^(-1/2). -/
theorem pre_v29 : after hostOps0_2 (after hostOps0_1 (after hostOps0 V)) (Proc.devRef .tc main_v29)
    = val_main_v29 (F := F) (V (Proc.devRef .tc main_arg1)) := by
  after_results_simp <;> rfl

set_option maxHeartbeats 4000000 in
/-- The decoder's bias laid out as one row. -/
theorem pre_v30 : after hostOps0_2 (after hostOps0_1 (after hostOps0 V)) (Proc.devRef .tc main_v30)
    = shapeCast S1x800000 (V (Proc.devRef .tc main_arg3)) shapeCasts_S800000_S1x800000 := by
  after_results_simp <;> rfl

/-! ## After the first region: the decoder's row as the node features -/

theorem feat (x0 : (⟨S1x64, .f32⟩ : BufTy).Contents (Elt F)) (x2 : (⟨S64x800000, .f32⟩ : BufTy).Contents (Elt F))
    (x3 : (⟨S800000, .f32⟩ : BufTy).Contents (Elt F))
    (h31 : V (Proc.devRef .tc main_v31) = val_main_v32 (F := F) x0 x2 x3) :
    after hostOps1 V (Proc.devRef .tc main_v32) = val_main_v33 (F := F) x0 x2 x3 := by
  after_results
  rw [h31]
  rfl

/-! ## After the second, third and fourth regions: one graph-convolution layer's aggregation each -/

set_option maxHeartbeats 4000000 in
/-- The first layer: gather the projected features along the edges, weight, scatter-add, add the bias, relu. -/
theorem layer1 (x0 : (⟨S1x64, .f32⟩ : BufTy).Contents (Elt F)) (x1 : (⟨S2x1600000, .i32⟩ : BufTy).Contents (Elt F))
    (x2 : (⟨S64x800000, .f32⟩ : BufTy).Contents (Elt F)) (x3 : (⟨S800000, .f32⟩ : BufTy).Contents (Elt F))
    (x4 : (⟨S16x64, .f32⟩ : BufTy).Contents (Elt F)) (x5 : (⟨S64, .f32⟩ : BufTy).Contents (Elt F))
    (hp : V (Proc.devRef .tc main_v33) = val_main_v34 (F := F) x0 x2 x3 x4)
    (h5 : V (Proc.devRef .tc main_v5) = val_main_v5 (F := F) x1) (h6 : V (Proc.devRef .tc main_v6) = val_main_v6 (F := F) x1)
    (h29 : V (Proc.devRef .tc main_v29) = val_main_v29 (F := F) x1) (hb : V (Proc.devRef .tc main_arg5) = x5) :
    after hostOps2_1 (after hostOps2 V) (Proc.devRef .tc main_v50) = val_main_v51 (F := F) x0 x1 x2 x3 x4 x5 := by
  after_results_simp
  rw [hp, h5, h6, h29, hb]
  rfl

set_option maxHeartbeats 4000000 in
/-- The second layer. -/
theorem layer2 (x0 : (⟨S1x64, .f32⟩ : BufTy).Contents (Elt F)) (x1 : (⟨S2x1600000, .i32⟩ : BufTy).Contents (Elt F))
    (x2 : (⟨S64x800000, .f32⟩ : BufTy).Contents (Elt F)) (x3 : (⟨S800000, .f32⟩ : BufTy).Contents (Elt F))
    (x4 : (⟨S16x64, .f32⟩ : BufTy).Contents (Elt F)) (x5 : (⟨S64, .f32⟩ : BufTy).Contents (Elt F))
    (x6 : (⟨S64x32, .f32⟩ : BufTy).Contents (Elt F)) (x7 : (⟨S32, .f32⟩ : BufTy).Contents (Elt F))
    (hp : V (Proc.devRef .tc main_v51) = val_main_v52 (F := F) x0 x1 x2 x3 x4 x5 x6)
    (h5 : V (Proc.devRef .tc main_v5) = val_main_v5 (F := F) x1) (h6 : V (Proc.devRef .tc main_v6) = val_main_v6 (F := F) x1)
    (h29 : V (Proc.devRef .tc main_v29) = val_main_v29 (F := F) x1) (hb : V (Proc.devRef .tc main_arg7) = x7) :
    after hostOps3_1 (after hostOps3 V) (Proc.devRef .tc main_v68) = val_main_v69 (F := F) x0 x1 x2 x3 x4 x5 x6 x7 := by
  after_results_simp
  rw [hp, h5, h6, h29, hb]
  rfl

set_option maxHeartbeats 4000000 in
/-- The third layer and the sigmoid. -/
theorem layer3 (x0 : (⟨S1x64, .f32⟩ : BufTy).Contents (Elt F)) (x1 : (⟨S2x1600000, .i32⟩ : BufTy).Contents (Elt F))
    (x2 : (⟨S64x800000, .f32⟩ : BufTy).Contents (Elt F)) (x3 : (⟨S800000, .f32⟩ : BufTy).Contents (Elt F))
    (x4 : (⟨S16x64, .f32⟩ : BufTy).Contents (Elt F)) (x5 : (⟨S64, .f32⟩ : BufTy).Contents (Elt F))
    (x6 : (⟨S64x32, .f32⟩ : BufTy).Contents (Elt F)) (x7 : (⟨S32, .f32⟩ : BufTy).Contents (Elt F))
    (x8 : (⟨S32x1, .f32⟩ : BufTy).Contents (Elt F)) (x9 : (⟨S1, .f32⟩ : BufTy).Contents (Elt F))
    (hp : V (Proc.devRef .tc main_v69) = val_main_v70 (F := F) x0 x1 x2 x3 x4 x5 x6 x7 x8)
    (h5 : V (Proc.devRef .tc main_v5) = val_main_v5 (F := F) x1) (h6 : V (Proc.devRef .tc main_v6) = val_main_v6 (F := F) x1)
    (h29 : V (Proc.devRef .tc main_v29) = val_main_v29 (F := F) x1) (hb : V (Proc.devRef .tc main_arg9) = x9) :
    after hostOps4 V (Proc.devRef .tc main_v91) = val_main_v92 (F := F) x0 x1 x2 x3 x4 x5 x6 x7 x8 x9 := by
  after_results_simp
  rw [hp, h5, h6, h29, hb]
  rfl

end Cert.KernelIdeal.Host

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Reg0.lean ====
/-
  The first pallas_call (the decoder), read as a value: the 64×800000 weight and the 1×800000 bias are cut into fifty
  column blocks of 16000, the 1×64 input is one block, and grid point t writes columns 16000·t … 16000·t+15999 of the
  1×800000 result. Each written entry (0, j) is the matrix unit's product of the input with the weight block into a zero
  accumulator plus the bias entry, which at the ideal instance is  (Σ_k x[0, k] · w[k, 16000·t + j]) + b[0, 16000·t + j];
  the fifty column blocks cover the result, so the whole result array is  x · w + b  of the arrays the region is entered with.
-/
import proofs.«143719_j2104533975392_1_alg».proof.Proof.Gen.KernelIdeal.Frame
import proofs.«143719_j2104533975392_1_alg».proof.Proof.LibRowOps
import Idealize.ShloMosaic.Lib.Pipeline.Value
import Idealize.ShloMosaic.Lib.ValueIdx

noncomputable section

namespace Cert.KernelIdeal.Dec

open Cert.KernelIdeal Cert.KernelIdeal.Gen Idealize.ShloMosaic Idealize.ShloMosaic.TcCoe Idealize.ShloMosaic.ValueIdx
open Idealize.ShloMosaic.Pipeline (Dat)

-- the contents the region is entered with
variable (V : (c : Dev nD) → (b : Ref sig .tc) → Buf (Elt Ideal) ((c : Thread nD τ).loc b))

/-- Row `i 0` of the input at column `k`. -/
abbrev lhsAt (i : S1x800000.Idx) (k : Fin 64) : S1x64.Idx := fun a => match a with
  | ⟨0, _⟩ => ⟨(i 0).val, (i 0).isLt⟩
  | ⟨1, _⟩ => ⟨k.val, k.isLt⟩
/-- Row `k` of the weight at column `i 1`. -/
abbrev rhsAt (i : S1x800000.Idx) (k : Fin 64) : S64x800000.Idx := fun a => match a with
  | ⟨0, _⟩ => ⟨k.val, k.isLt⟩
  | ⟨1, _⟩ => ⟨(i 1).val, (i 1).isLt⟩

/-- The affine map  x · w + b  over the extended reals, index by index (the bias already laid out as one row). -/
def affine (x : (⟨S1x64, .f32⟩ : BufTy).Contents (Elt Ideal)) (w : (⟨S64x800000, .f32⟩ : BufTy).Contents (Elt Ideal))
    (b : (⟨S1x800000, .f32⟩ : BufTy).Contents (Elt Ideal)) : (⟨S1x800000, .f32⟩ : BufTy).Contents (Elt Ideal) :=
  fun i => FloatOps.addf (F := Ideal) (φ := .f32) (∑ k : Fin 64, x (lhsAt i k) * w (rhsAt i k)) (b i)

theorem hz : (![0, 0] : Fin 2 → Nat) = fun _ => 0 := funext fun a => by fin_cases a <;> rfl

/-- One block's payload at a block-local index: the change of float format is the identity, the matrix unit's product
    into a zero accumulator is the sum over the contracted axis, and the bias block's entry is added. -/
theorem pay_apply (x : Vec Ideal S1x64 .f32) (w : Vec Ideal S64x16000 .f32) (b : Vec Ideal S1x16000 .f32) (p : Fin 1) (q : Fin 16000) :
    k0_pay1 (F := Ideal) x w b (ix2 p q) = FloatOps.addf (F := Ideal) (φ := .f32) (∑ k : Fin 64, x (ix2 p k) * w (ix2 k q)) (b (ix2 p q)) := by
  unfold k0_pay1
  simp only [shapeCast_self]
  exact congrArg (fun s => FloatOps.addf (F := Ideal) (φ := .f32) s (b (ix2 p q)))
    (Cert.RowOps.matmul_apply dot_S1x64_S64x16000_S1x16000_1_0_0_1_n_n.wf none _ _ p q)

/-- Where the grid's index maps send point `t`: the one block of the input, column block `t` of the weight, the bias and the result. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The input's block at any point is the whole input. -/
theorem lhs_blk (c : Dev nD) (t : Fin cfg0.N) (p : Fin 1) (k : Fin 64) (i : S1x800000.Idx) (hi : (i 0).val = p.val) :
    iblk0 V c 0 t (ix2 p k) = V c main_arg0 (lhsAt i k) := by
  obtain ⟨e0, e1, -, -, -, -, -, -⟩ := idx_facts t
  show V c main_arg0 (((cfg0.win 0).blk t).view.emb (ix2 p k)) = V c main_arg0 (lhsAt i k)
  refine congrArg (V c main_arg0) (funext fun a => Fin.ext ?_)
  match a with
  | ⟨0, _⟩ => show win0_0.index t (0 : Fin 2) * 1 + 1 * p.val = (i 0).val; omega
  | ⟨1, _⟩ => show win0_0.index t (1 : Fin 2) * 64 + 1 * k.val = k.val; omega

/-- The weight's block at point `t`, at a block-local index: the array's column 16000·t + q. -/
theorem rhs_blk (c : Dev nD) (t : Fin cfg0.N) (k : Fin 64) (q : Fin 16000) (i : S1x800000.Idx)
    (hi : (i 1).val = t.val * 16000 + q.val) :
    iblk0 V c 1 t (ix2 k q) = V c main_arg2 (rhsAt i k) := by
  obtain ⟨-, -, e2, e3, -, -, -, -⟩ := idx_facts t
  show V c main_arg2 (((cfg0.win 1).blk t).view.emb (ix2 k q)) = V c main_arg2 (rhsAt i k)
  refine congrArg (V c main_arg2) (funext fun a => Fin.ext ?_)
  match a with
  | ⟨0, _⟩ => show win0_1.index t (0 : Fin 2) * 64 + 1 * k.val = k.val; omega
  | ⟨1, _⟩ => show win0_1.index t (1 : Fin 2) * 16000 + 1 * q.val = (i 1).val; omega

/-- The bias block at point `t`, at a block-local index: the bias row's column 16000·t + q. -/
theorem bias_blk (c : Dev nD) (t : Fin cfg0.N) (p : Fin 1) (q : Fin 16000) (i : S1x800000.Idx)
    (h0 : (i 0).val = p.val) (h1 : (i 1).val = t.val * 16000 + q.val) :
    iblk0 V c 2 t (ix2 p q) = V c main_v30 i := by
  obtain ⟨-, -, -, -, e4, e5, -, -⟩ := idx_facts t
  show V c main_v30 (((cfg0.win 2).blk t).view.emb (ix2 p q)) = V c main_v30 i
  refine congrArg (V c main_v30) (funext fun a => Fin.ext ?_)
  match a with
  | ⟨0, _⟩ => show win0_2.index t (0 : Fin 2) * 1 + 1 * p.val = (i 0).val; omega
  | ⟨1, _⟩ => show win0_2.index t (1 : Fin 2) * 16000 + 1 * q.val = (i 1).val; omega

/-- What point `t` writes back is column block `t` of  x · w + b  of the arrays the region is entered with. -/
theorem flushed_eq (c : Dev nD) (t : Fin cfg0.N) :
    (dat0 V c).flushed 3 t = ((cfg0.win 3).blk t).view.read (Elt Ideal) (affine (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S1x64) hz, View.ld_unit_zero (S := S64x16000) hz, View.ld_unit_zero (S := S1x16000) hz]
  obtain ⟨-, -, -, -, -, -, e6, e7⟩ := idx_facts t
  funext y
  obtain ⟨p, q, rfl⟩ : ∃ (p : Fin 1) (q : Fin 16000), y = ix2 p q := ⟨y 0, y 1, eq_ix2 y⟩
  show k0_pay1 (F := Ideal) (iblk0 V c 0 t) (iblk0 V c 1 t) (iblk0 V c 2 t) (ix2 p q)
    = affine (V c main_arg0) (V c main_arg2) (V c main_v30) (((cfg0.win 3).blk t).view.emb (ix2 p q))
  refine (pay_apply _ _ _ p q).trans ?_
  unfold affine
  have h0 : ((((cfg0.win 3).blk t).view.emb (ix2 p q)) 0).val = p.val := by
    show win0_3.index t (0 : Fin 2) * 1 + 1 * p.val = _; omega
  have h1 : ((((cfg0.win 3).blk t).view.emb (ix2 p q)) 1).val = t.val * 16000 + q.val := by
    show win0_3.index t (1 : Fin 2) * 16000 + 1 * q.val = _; omega
  rw [bias_blk V c t p q _ h0 h1]
  refine congrArg (fun s => FloatOps.addf (F := Ideal) (φ := .f32) s _) (Finset.sum_congr rfl fun k _ => ?_)
  rw [lhs_blk V c t p k _ h0, rhs_blk V c t k q _ h1]

/-- An index of the result lies in point `t`'s block iff each coordinate lies in the block's range on its axis. -/
theorem mem_blk (t : Fin cfg0.N) (i : S1x800000.Idx) :
    i ∈ ((cfg0.win 3).blk t).view.set ↔ ∀ a : Fin 2, win0_3.index t a * S1x16000.size a ≤ (i a).val ∧ (i a).val < win0_3.index t a * S1x16000.size a + S1x16000.size a := by
  show i ∈ ((View.whole main_v31).slice (win0_3.rect t)).set ↔ _
  rw [View.set_slice_whole, Rect.mem_set_unit]
  exact Iff.rfl

/-- Every index of the result lies in the block of the point that owns its column: point ⌊column / 16000⌋. -/
theorem cover (i : S1x800000.Idx) : ∃ t : Fin cfg0.N, (cfg0.win 3).flush t = true ∧ i ∈ ((cfg0.win 3).blk t).view.set := by
  have hi0 : (i 0).val < 1 := (i 0).isLt
  have hi1 : (i 1).val < 800000 := (i 1).isLt
  have hN : cfg0.N = 50 := N_0
  let t : Fin cfg0.N := ⟨(i 1).val / 16000, by rw [hN]; omega⟩
  obtain ⟨-, -, -, -, -, -, e6, e7⟩ := idx_facts t
  have ht : t.val = (i 1).val / 16000 := rfl
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 16000 ≤ (i 1).val ∧ (i 1).val < win0_3.index t (1 : Fin 2) * 16000 + 16000; omega

/-- The result array after the region:  x · w + b  of the arrays the region is entered with. -/
theorem final (c : Dev nD) : (dat0 V c).arrAt 3 cfg0.N = affine (V c main_arg0) (V c main_arg2) (V c main_v30) :=
  (dat0 V c).arrAt_eq_of_cover 3 (affine (V c main_arg0) (V c main_arg2) (V c main_v30)) (fun t _ => flushed_eq V c t) cover

end Cert.KernelIdeal.Dec

end
-- ==== Proof.Reg1.lean ====
/-
  The second pallas_call (the first GCN layer's linear half), read as a value: the 50000×16 feature array is cut into ten
  blocks of 5000 rows, the 16×64 weight is one block, and grid point t writes rows 5000·t … 5000·t+4999 of the result.
  Each written entry (r, j) is the matrix unit's product of the row block with the weight into a zero accumulator, which at
  the ideal instance is the plain sum  Σ_k h[5000·t + r, k] · w[k, j];  the ten row blocks cover the result, so the whole
  result array is the product  h · w  of the arrays the region is entered with, index by index.
-/
import proofs.«143719_j2104533975392_1_alg».proof.Proof.Gen.KernelIdeal.Frame
import proofs.«143719_j2104533975392_1_alg».proof.Proof.LibRowOps
import Idealize.ShloMosaic.Lib.Pipeline.Value
import Idealize.ShloMosaic.Lib.ValueIdx

noncomputable section

namespace Cert.KernelIdeal.Lin1

open Cert.KernelIdeal Cert.KernelIdeal.Gen Idealize.ShloMosaic Idealize.ShloMosaic.TcCoe Idealize.ShloMosaic.ValueIdx
open Idealize.ShloMosaic.Pipeline (Dat)

-- the contents the region is entered with
variable (V : (c : Dev nD) → (b : Ref sig .tc) → Buf (Elt Ideal) ((c : Thread nD τ).loc b))

/-- Row `i 0` of the left operand at column `k`. -/
abbrev lhsAt (i : S50000x64.Idx) (k : Fin 16) : S50000x16.Idx := fun a => match a with
  | ⟨0, _⟩ => ⟨(i 0).val, (i 0).isLt⟩
  | ⟨1, _⟩ => ⟨k.val, k.isLt⟩
/-- Row `k` of the right operand at column `i 1`. -/
abbrev rhsAt (i : S50000x64.Idx) (k : Fin 16) : S16x64.Idx := fun a => match a with
  | ⟨0, _⟩ => ⟨k.val, k.isLt⟩
  | ⟨1, _⟩ => ⟨(i 1).val, (i 1).isLt⟩

/-- The matrix product of a 50000×16 array with a 16×64 array over the extended reals, index by index. -/
def prod (h : (⟨S50000x16, .f32⟩ : BufTy).Contents (Elt Ideal)) (w : (⟨S16x64, .f32⟩ : BufTy).Contents (Elt Ideal)) :
    (⟨S50000x64, .f32⟩ : BufTy).Contents (Elt Ideal) :=
  fun i => ∑ k : Fin 16, h (lhsAt i k) * w (rhsAt i k)

theorem hz : (![0, 0] : Fin 2 → Nat) = fun _ => 0 := funext fun a => by fin_cases a <;> rfl

/-- One block's payload at a block-local index: the change of float format is the identity and the matrix unit's product
    into a zero accumulator is the sum over the contracted axis. -/
theorem pay_apply (x : Vec Ideal S5000x16 .f32) (w : Vec Ideal S16x64 .f32) (p : Fin 5000) (q : Fin 64) :
    k1_pay1 (F := Ideal) x w (ix2 p q) = ∑ k : Fin 16, x (ix2 p k) * w (ix2 k q) := by
  unfold k1_pay1
  simp only [shapeCast_self]
  exact Cert.RowOps.matmul_apply dot_S5000x16_S16x64_S5000x64_1_0_0_1_n_n.wf none _ _ p q

/-- Where the grid's index maps send point `t`: row block `t` of the left operand and of the result, the one block of the weight. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point `t`, at a block-local index: the array's row 5000·t + p. -/
theorem lhs_blk (c : Dev nD) (t : Fin cfg1.N) (p : Fin 5000) (k : Fin 16) (i : S50000x64.Idx)
    (hi : (i 0).val = t.val * 5000 + p.val) :
    iblk1 V c 0 t (ix2 p k) = V c main_v32 (lhsAt i k) := by
  obtain ⟨e0, e1, -, -, -, -⟩ := idx_facts t
  show V c main_v32 (((cfg1.win 0).blk t).view.emb (ix2 p k)) = V c main_v32 (lhsAt i k)
  refine congrArg (V c main_v32) (funext fun a => Fin.ext ?_)
  match a with
  | ⟨0, _⟩ => show win1_0.index t (0 : Fin 2) * 5000 + 1 * p.val = (i 0).val; omega
  | ⟨1, _⟩ => show win1_0.index t (1 : Fin 2) * 16 + 1 * k.val = k.val; omega

/-- The weight's block at any point is the whole weight. -/
theorem rhs_blk (c : Dev nD) (t : Fin cfg1.N) (k : Fin 16) (q : Fin 64) (i : S50000x64.Idx) (hi : (i 1).val = q.val) :
    iblk1 V c 1 t (ix2 k q) = V c main_arg4 (rhsAt i k) := by
  obtain ⟨-, -, e2, e3, -, -⟩ := idx_facts t
  show V c main_arg4 (((cfg1.win 1).blk t).view.emb (ix2 k q)) = V c main_arg4 (rhsAt i k)
  refine congrArg (V c main_arg4) (funext fun a => Fin.ext ?_)
  match a with
  | ⟨0, _⟩ => show win1_1.index t (0 : Fin 2) * 16 + 1 * k.val = k.val; omega
  | ⟨1, _⟩ => show win1_1.index t (1 : Fin 2) * 64 + 1 * q.val = (i 1).val; omega

/-- What point `t` writes back is row block `t` of the product of the arrays the region is entered with. -/
theorem flushed_eq (c : Dev nD) (t : Fin cfg1.N) :
    (dat1 V c).flushed 2 t = ((cfg1.win 2).blk t).view.read (Elt Ideal) (prod (V c main_v32) (V c main_arg4)) := by
  show (cfg1.win 2).cut (grid1.coords t) ((dat1 V c).after 2 t) = _
  rw [after1_2]
  unfold out1_2
  rw [View.canon_unit_zero hz]
  simp only [View.ld_unit_zero (S := S5000x16) hz, View.ld_unit_zero (S := S16x64) hz]
  obtain ⟨-, -, -, -, e4, e5⟩ := idx_facts t
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (ix2 p q)
    = prod (V c main_v32) (V c main_arg4) (((cfg1.win 2).blk t).view.emb (ix2 p q))
  refine (pay_apply _ _ p q).trans ?_
  unfold prod
  refine Finset.sum_congr rfl fun k _ => ?_
  have h0 : ((((cfg1.win 2).blk t).view.emb (ix2 p q)) 0).val = t.val * 5000 + p.val := by
    show win1_2.index t (0 : Fin 2) * 5000 + 1 * p.val = _; omega
  have h1 : ((((cfg1.win 2).blk t).view.emb (ix2 p q)) 1).val = q.val := by
    show win1_2.index t (1 : Fin 2) * 64 + 1 * q.val = _; omega
  rw [lhs_blk V c t p k _ h0, rhs_blk V c t k q _ h1]

/-- An index of the result lies in point `t`'s block iff each coordinate lies in the block's range on its axis. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v33).slice (win1_2.rect t)).set ↔ _
  rw [View.set_slice_whole, Rect.mem_set_unit]
  exact Iff.rfl

/-- Every index of the result lies in the block of the point that owns its row: point ⌊row / 5000⌋. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, e4, e5⟩ := idx_facts t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The result array after the region: the product of the two arrays the region is entered with. -/
theorem final (c : Dev nD) : (dat1 V c).arrAt 2 cfg1.N = prod (V c main_v32) (V c main_arg4) :=
  (dat1 V c).arrAt_eq_of_cover 2 (prod (V c main_v32) (V c main_arg4)) (fun t _ => flushed_eq V c t) cover

end Cert.KernelIdeal.Lin1

end
-- ==== Proof.Bridge.lean ====
/-
  The regions' values against the reference's stages. A region leaves in its result array the plain product (for the decoder
  the product plus the bias row) of the arrays it is entered with; the reference computes the same array with a host
  `dot_general` (and a broadcast and an add), which over the extended reals is the same sum over the contracted axis, entry
  by entry. The decoder's bias enters the kernel as the one-row reshape of the bias vector and the reference as the
  broadcast of that vector along a unit axis: both read the vector at the column's index.
-/
import proofs.«143719_j2104533975392_1_alg».proof.Proof.RefRead
import proofs.«143719_j2104533975392_1_alg».proof.Proof.Reg0
import proofs.«143719_j2104533975392_1_alg».proof.Proof.Reg1
import proofs.«143719_j2104533975392_1_alg».proof.Proof.Reg2
import proofs.«143719_j2104533975392_1_alg».proof.Proof.Reg3
import Idealize.ShloMosaic.Lib.Pipeline.Value

noncomputable section

namespace Cert.KernelIdeal.Bridge

open Cert.KernelIdeal Cert.KernelIdeal.Gen Idealize.ShloMosaic
open Cert.ReferenceIdeal.ReadP

/-- The decoder:  x · w + (the bias as one row)  is the reference's  dot_general(x, w) + broadcast(bias). -/
theorem dec_eq (x0 : (⟨S1x64, .f32⟩ : BufTy).Contents (Elt Ideal)) (x2 : (⟨S64x800000, .f32⟩ : BufTy).Contents (Elt Ideal))
    (x3 : (⟨S800000, .f32⟩ : BufTy).Contents (Elt Ideal)) :
    Dec.affine x0 x2 (shapeCast S1x800000 x3 shapeCasts_S800000_S1x800000) = val_main_v32 (F := Ideal) x0 x2 x3 := by
  funext i
  rw [val_main_v32_apply, val_main_v30_apply, val_main_v31_apply]
  have h0 : (i 0).val < 1 := (i 0).isLt
  have hb : shapeCast S1x800000 x3 shapeCasts_S800000_S1x800000 i = x3 (idx_main_v31 i) :=
    shapeCast_apply x3 shapeCasts_S800000_S1x800000 i (idx_main_v31 i) (by
      rw [Shape.rowMajor_val_one, Shape.rowMajor_val_two]
      show (i 1).val = (i 0).val * 800000 + (i 1).val
      omega)
  unfold Dec.affine
  rw [hb]
  rfl

/-- The first layer's linear half: the region's product is the reference's `dot_general`. -/
theorem lin1_eq (x0 : (⟨S1x64, .f32⟩ : BufTy).Contents (Elt Ideal)) (x2 : (⟨S64x800000, .f32⟩ : BufTy).Contents (Elt Ideal))
    (x3 : (⟨S800000, .f32⟩ : BufTy).Contents (Elt Ideal)) (x4 : (⟨S16x64, .f32⟩ : BufTy).Contents (Elt Ideal)) :
    Lin1.prod (val_main_v33 (F := Ideal) x0 x2 x3) x4 = val_main_v34 (F := Ideal) x0 x2 x3 x4 := by
  funext i
  rw [val_main_v34_apply]
  rfl

/-- The second layer's linear half. -/
theorem lin2_eq (x0 : (⟨S1x64, .f32⟩ : BufTy).Contents (Elt Ideal)) (x1 : (⟨S2x1600000, .i32⟩ : BufTy).Contents (Elt Ideal))
    (x2 : (⟨S64x800000, .f32⟩ : BufTy).Contents (Elt Ideal)) (x3 : (⟨S800000, .f32⟩ : BufTy).Contents (Elt Ideal))
    (x4 : (⟨S16x64, .f32⟩ : BufTy).Contents (Elt Ideal)) (x5 : (⟨S64, .f32⟩ : BufTy).Contents (Elt Ideal))
    (x6 : (⟨S64x32, .f32⟩ : BufTy).Contents (Elt Ideal)) :
    Lin2.prod (val_main_v51 (F := Ideal) x0 x1 x2 x3 x4 x5) x6 = val_main_v52 (F := Ideal) x0 x1 x2 x3 x4 x5 x6 := by
  funext i
  rw [val_main_v52_apply]
  rfl

/-- The third layer's linear half. -/
theorem lin3_eq (x0 : (⟨S1x64, .f32⟩ : BufTy).Contents (Elt Ideal)) (x1 : (⟨S2x1600000, .i32⟩ : BufTy).Contents (Elt Ideal))
    (x2 : (⟨S64x800000, .f32⟩ : BufTy).Contents (Elt Ideal)) (x3 : (⟨S800000, .f32⟩ : BufTy).Contents (Elt Ideal))
    (x4 : (⟨S16x64, .f32⟩ : BufTy).Contents (Elt Ideal)) (x5 : (⟨S64, .f32⟩ : BufTy).Contents (Elt Ideal))
    (x6 : (⟨S64x32, .f32⟩ : BufTy).Contents (Elt Ideal)) (x7 : (⟨S32, .f32⟩ : BufTy).Contents (Elt Ideal))
    (x8 : (⟨S32x1, .f32⟩ : BufTy).Contents (Elt Ideal)) :
    Lin3.prod (val_main_v69 (F := Ideal) x0 x1 x2 x3 x4 x5 x6 x7) x8 = val_main_v70 (F := Ideal) x0 x1 x2 x3 x4 x5 x6 x7 x8 := by
  funext i
  rw [val_main_v70_apply]
  rfl

end Cert.KernelIdeal.Bridge

end
-- ==== Proof.KValue.lean ====
/-
  The kernel's result as a function of its arguments, at the ideal instance. @main is walked boundary by boundary: each host
  stretch turns the reference's stage values in its input buffers into the reference's next stage value (the stretches are
  the reference's own operations), and each region turns its two input arrays into their product, which is the reference's
  `dot_general` stage. The edge lists, the edge coefficients and the arguments are carried unchanged to where they are read.
  At the last boundary the result buffer holds the reference's last stage of the launch contents of the arguments.
-/
import proofs.«143719_j2104533975392_1_alg».proof.Proof.Gen.KernelIdeal.Frame
import proofs.«143719_j2104533975392_1_alg».proof.Proof.Carry
import proofs.«143719_j2104533975392_1_alg».proof.Proof.KHost
import proofs.«143719_j2104533975392_1_alg».proof.Proof.Bridge

set_option maxRecDepth 16384

noncomputable section

namespace Cert.KernelIdeal.ValueK

open Cert.KernelIdeal Cert.KernelIdeal.Gen Idealize.ShloMosaic Idealize.ShloMosaic.TcCoe
open Cert.ReferenceIdeal.ReadP (val_main_v5 val_main_v6 val_main_v29 val_main_v32 val_main_v33 val_main_v34 val_main_v51 val_main_v52
  val_main_v69 val_main_v70 val_main_v92)

variable (m : (ℓ : Loc nD τ sig) → Buf (Elt Ideal) ℓ) (ρ : Dev nD → PrngReg)

/-! ## At the first region's entry -/

theorem W3_v5 (c : Dev nD) : W3 m ρ c (Proc.devRef .tc main_v5) = val_main_v5 (F := Ideal) (m ((c : Thread nD τ).loc main_arg1)) :=
  Host.pre_v5 (W0 m ρ c)
theorem W3_v6 (c : Dev nD) : W3 m ρ c (Proc.devRef .tc main_v6) = val_main_v6 (F := Ideal) (m ((c : Thread nD τ).loc main_arg1)) :=
  Host.pre_v6 (W0 m ρ c)
theorem W3_v29 (c : Dev nD) : W3 m ρ c (Proc.devRef .tc main_v29) = val_main_v29 (F := Ideal) (m ((c : Thread nD τ).loc main_arg1)) :=
  Host.pre_v29 (W0 m ρ c)
theorem W3_v30 (c : Dev nD) : W3 m ρ c (Proc.devRef .tc main_v30)
    = shapeCast S1x800000 (m ((c : Thread nD τ).loc main_arg3)) shapeCasts_S800000_S1x800000 :=
  Host.pre_v30 (W0 m ρ c)

/-! ## The decoder and the node features -/

theorem W4_v31 (c : Dev nD) : W4 m ρ c (Proc.devRef .tc main_v31) = val_main_v32 (F := Ideal) (m ((c : Thread nD τ).loc main_arg0)) (m ((c : Thread nD τ).loc main_arg2)) (m ((c : Thread nD τ).loc main_arg3)) := by
  have h0 : V3 m ρ c main_arg0 = (m ((c : Thread nD τ).loc main_arg0)) := Carry.W3_arg0 m ρ c
  have h2 : V3 m ρ c main_arg2 = (m ((c : Thread nD τ).loc main_arg2)) := Carry.W3_arg2 m ρ c
  have h30 : V3 m ρ c main_v30 = shapeCast S1x800000 (m ((c : Thread nD τ).loc main_arg3)) shapeCasts_S800000_S1x800000 := W3_v30 m ρ c
  calc W4 m ρ c (Proc.devRef .tc main_v31)
      = (dat0 (V3 m ρ) c).arrAt 3 cfg0.N := W4_arr m ρ c 3
    _ = Dec.affine (V3 m ρ c main_arg0) (V3 m ρ c main_arg2) (V3 m ρ c main_v30) := Dec.final (V3 m ρ) c
    _ = Dec.affine (m ((c : Thread nD τ).loc main_arg0)) (m ((c : Thread nD τ).loc main_arg2)) (shapeCast S1x800000 (m ((c : Thread nD τ).loc main_arg3)) shapeCasts_S800000_S1x800000) := by rw [h0, h2, h30]
    _ = val_main_v32 (F := Ideal) (m ((c : Thread nD τ).loc main_arg0)) (m ((c : Thread nD τ).loc main_arg2)) (m ((c : Thread nD τ).loc main_arg3)) := Bridge.dec_eq _ _ _

theorem W5_v32 (c : Dev nD) : W5 m ρ c (Proc.devRef .tc main_v32) = val_main_v33 (F := Ideal) (m ((c : Thread nD τ).loc main_arg0)) (m ((c : Thread nD τ).loc main_arg2)) (m ((c : Thread nD τ).loc main_arg3)) :=
  Host.feat (W4 m ρ c) _ _ _ (W4_v31 m ρ c)

/-! ## The first layer -/

theorem W6_v33 (c : Dev nD) : W6 m ρ c (Proc.devRef .tc main_v33) = val_main_v34 (F := Ideal) (m ((c : Thread nD τ).loc main_arg0)) (m ((c : Thread nD τ).loc main_arg2)) (m ((c : Thread nD τ).loc main_arg3)) (m ((c : Thread nD τ).loc main_arg4)) := by
  have hl : V5 m ρ c main_v32 = val_main_v33 (F := Ideal) (m ((c : Thread nD τ).loc main_arg0)) (m ((c : Thread nD τ).loc main_arg2)) (m ((c : Thread nD τ).loc main_arg3)) := W5_v32 m ρ c
  have hr : V5 m ρ c main_arg4 = (m ((c : Thread nD τ).loc main_arg4)) := Carry.W5_arg4 m ρ c
  calc W6 m ρ c (Proc.devRef .tc main_v33)
      = (dat1 (V5 m ρ) c).arrAt 2 cfg1.N := W6_arr m ρ c 2
    _ = Lin1.prod (V5 m ρ c main_v32) (V5 m ρ c main_arg4) := Lin1.final (V5 m ρ) c
    _ = Lin1.prod (val_main_v33 (F := Ideal) (m ((c : Thread nD τ).loc main_arg0)) (m ((c : Thread nD τ).loc main_arg2)) (m ((c : Thread nD τ).loc main_arg3))) (m ((c : Thread nD τ).loc main_arg4)) := by rw [hl, hr]
    _ = val_main_v34 (F := Ideal) (m ((c : Thread nD τ).loc main_arg0)) (m ((c : Thread nD τ).loc main_arg2)) (m ((c : Thread nD τ).loc main_arg3)) (m ((c : Thread nD τ).loc main_arg4)) := Bridge.lin1_eq _ _ _ _

theorem W8_v50 (c : Dev nD) : W8 m ρ c (Proc.devRef .tc main_v50) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Host.layer1 (W6 m ρ c) _ _ _ _ _ _ (W6_v33 m ρ c) ((Carry.W6_v5 m ρ c).trans (W3_v5 m ρ c)) ((Carry.W6_v6 m ρ c).trans (W3_v6 m ρ c))
    ((Carry.W6_v29 m ρ c).trans (W3_v29 m ρ c)) (Carry.W6_arg5 m ρ c)

/-! ## The second layer -/

theorem W9_v51 (c : Dev nD) : W9 m ρ c (Proc.devRef .tc main_v51) = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hl : V8 m ρ c main_v50 = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := W8_v50 m ρ c
  have hr : V8 m ρ c main_arg6 = (m ((c : Thread nD τ).loc main_arg6)) := Carry.W8_arg6 m ρ c
  calc W9 m ρ c (Proc.devRef .tc main_v51)
      = (dat2 (V8 m ρ) c).arrAt 2 cfg2.N := W9_arr m ρ c 2
    _ = Lin2.prod (V8 m ρ c main_v50) (V8 m ρ c main_arg6) := Lin2.final (V8 m ρ) c
    _ = Lin2.prod (val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) := by rw [hl, hr]
    _ = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := Bridge.lin2_eq _ _ _ _ _ _ _

theorem W11_v68 (c : Dev nD) : W11 m ρ c (Proc.devRef .tc main_v68) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  Host.layer2 (W9 m ρ c) _ _ _ _ _ _ _ _ (W9_v51 m ρ c) ((Carry.W9_v5 m ρ c).trans (W3_v5 m ρ c)) ((Carry.W9_v6 m ρ c).trans (W3_v6 m ρ c))
    ((Carry.W9_v29 m ρ c).trans (W3_v29 m ρ c)) (Carry.W9_arg7 m ρ c)

/-! ## The third layer and the result -/

theorem W12_v69 (c : Dev nD) : W12 m ρ c (Proc.devRef .tc main_v69) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have hl : V11 m ρ c main_v68 = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := W11_v68 m ρ c
  have hr : V11 m ρ c main_arg8 = (m ((c : Thread nD τ).loc main_arg8)) := Carry.W11_arg8 m ρ c
  calc W12 m ρ c (Proc.devRef .tc main_v69)
      = (dat3 (V11 m ρ) c).arrAt 2 cfg3.N := W12_arr m ρ c 2
    _ = Lin3.prod (V11 m ρ c main_v68) (V11 m ρ c main_arg8) := Lin3.final (V11 m ρ) c
    _ = Lin3.prod (val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by rw [hl, hr]
    _ = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := Bridge.lin3_eq _ _ _ _ _ _ _ _ _

/-- The result buffer at the last boundary: the reference's last stage of the arguments' launch contents. -/
theorem W13_v91 (c : Dev nD) : W13 m ρ c (Proc.devRef .tc main_v91) = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  Host.layer3 (W12 m ρ c) _ _ _ _ _ _ _ _ _ _ (W12_v69 m ρ c) ((Carry.W12_v5 m ρ c).trans (W3_v5 m ρ c)) ((Carry.W12_v6 m ρ c).trans (W3_v6 m ρ c))
    ((Carry.W12_v29 m ρ c).trans (W3_v29 m ρ c)) (Carry.W12_arg9 m ρ c)

end Cert.KernelIdeal.ValueK

end
-- ==== Proof.lean ====
/-
  A graph-convolution decoder: a 1×64 latent row is decoded to 50000 nodes × 16 features by one affine map, three
  graph-convolution layers (linear map, symmetric-normalised aggregation over the edges with self-loops, bias; relu after the
  first two) bring it to one value per node, and a sigmoid ends it. The kernel program runs the four matrix products as
  pallas_calls (the operands narrowed to bf16 on the way into the matrix unit, blocks of 16000 columns for the decoder and of
  5000 rows for the layers) and everything else as the host operations the reference itself uses.

  Over the extended reals the two programs compute the same function. A change of float format is the identity there, and a
  matrix-unit product into a zero accumulator and a host `dot_general` are both the plain sum over the contracted axis, so
  each region's result array is, index by index, the reference's `dot_general` stage (the blocks tile the result, and each
  block is that block of the whole product). The host stretches between the regions are the reference's own operations, so
  stage by stage the kernel's buffers hold the reference's stage values, up to the result. No property of the inputs is used:
  only sums, products and the shared host operations are compared, never rearranged.

  The three frames are the generated ones (the reference's is its run with the result dropped); the idealisation rewrote
  nothing, so `preserves` is trivial.
-/
import proofs.«143719_j2104533975392_1_alg».proof.Defs
import proofs.«143719_j2104533975392_1_alg».proof.Proof.Gen.Kernel
import proofs.«143719_j2104533975392_1_alg».proof.Proof.Gen.Kernel.Frame
import proofs.«143719_j2104533975392_1_alg».proof.Proof.Gen.KernelIdeal
import proofs.«143719_j2104533975392_1_alg».proof.Proof.Gen.KernelIdeal.Frame
import proofs.«143719_j2104533975392_1_alg».proof.Proof.Gen.ReferenceIdeal
import proofs.«143719_j2104533975392_1_alg».proof.Proof.Gen.Pre_finite_inputs
import proofs.«143719_j2104533975392_1_alg».proof.Proof.KRun
import proofs.«143719_j2104533975392_1_alg».proof.Proof.RefRun
import proofs.«143719_j2104533975392_1_alg».proof.Proof.RefRead
import proofs.«143719_j2104533975392_1_alg».proof.Proof.KValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's last stage of the (agreeing) arguments in their result buffers. -/
theorem algebraic : Cert.algebraic_KernelIdeal_ReferenceIdeal := by
  intro m ρ m' ρ' _ hagree
  refine ⟨fun c => Cert.ReferenceIdeal.ReadP.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.ValueK.W13_v91 m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.ReadP.val_main_v92_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
